-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S1x4096, .f32⟩
  | .hbm, ⟨5, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.ChunkedDot.lean ====
/-
  A dot product of 4096 terms taken in eight consecutive chunks of 512.

  The kernel never forms the sum over all 4096 columns at once: for each of the eight column chunks it adds that
  chunk's 512 products to a running total that starts at zero. On the extended reals addition is commutative and
  associative (with or without infinities), so the running total after the eighth chunk is the sum over all 4096
  columns. Nothing here needs the entries to be finite.

  Arrays are read at pairs of natural numbers (zero outside the array), so that a block's row `1024 * b + r` or
  column `512 * k + q` is plain arithmetic.
-/
import Idealize.ShloMosaic.PureOps.Ideal
import Idealize.ShloMosaic.Lib.ValueIdx

noncomputable section

namespace Cert.MaskedLinear

open Idealize.ShloMosaic Idealize.ShloMosaic.ValueIdx

/-- An `[A, B]` array of extended reals read at a pair of naturals: its entry inside the array, zero outside. -/
def at2 {A B : ℕ} (f : (⟨2, ![A, B]⟩ : Shape).Idx → EReal) (a b : ℕ) : EReal :=
  if h : a < A ∧ b < B then f (ix2 ⟨a, h.1⟩ ⟨b, h.2⟩) else 0

theorem at2_of_lt {A B : ℕ} (f : (⟨2, ![A, B]⟩ : Shape).Idx → EReal) (a b : ℕ) (ha : a < A) (hb : b < B) :
    at2 f a b = f (ix2 ⟨a, ha⟩ ⟨b, hb⟩) := dif_pos ⟨ha, hb⟩

/-- What column chunk `k` (columns `512 k … 512 k + 511`) adds to the dot product of row `a` of `X` with row `b` of `Y`. -/
def chunkDot (X Y : ℕ → ℕ → EReal) (a b k : ℕ) : EReal :=
  ∑ q : Fin 512, X a (512 * k + q.val) * Y b (512 * k + q.val)

/-- The running total after chunks `0 … n`, added in order onto zero. -/
def runDot (X Y : ℕ → ℕ → EReal) (a b : ℕ) : ℕ → EReal
  | 0 => 0 + chunkDot X Y a b 0
  | n + 1 => runDot X Y a b n + chunkDot X Y a b (n + 1)

/-- The running total is the sum of the chunks so far. -/
theorem runDot_eq_sum (X Y : ℕ → ℕ → EReal) (a b n : ℕ) :
    runDot X Y a b n = ∑ k ∈ Finset.range (n + 1), chunkDot X Y a b k := by
  induction n with
  | zero => rw [runDot, zero_add, Finset.sum_range_one]
  | succ n ih => rw [runDot, ih, Finset.sum_range_succ _ (n + 1)]

/-- After the eighth chunk the running total is the dot product over all 4096 columns: a column `i` is column
    `i % 512` of chunk `i / 512`. -/
theorem runDot_seven (X Y : ℕ → ℕ → EReal) (a b : ℕ) :
    runDot X Y a b 7 = ∑ i : Fin 4096, X a i.val * Y b i.val := by
  rw [runDot_eq_sum, Finset.sum_range (fun k => chunkDot X Y a b k)]
  calc ∑ k : Fin 8, chunkDot X Y a b k.val
      = ∑ p : Fin 8 × Fin 512, X a (finProdFinEquiv p).val * Y b (finProdFinEquiv p).val := by
        rw [Fintype.sum_prod_type]
        refine Finset.sum_congr rfl fun k _ => Finset.sum_congr rfl fun q _ => ?_
        have e : (finProdFinEquiv (k, q)).val = 512 * k.val + q.val := by
          show q.val + 512 * k.val = _; omega
        rw [e]
    _ = ∑ i : Fin (8 * 512), X a i.val * Y b i.val :=
        Equiv.sum_comp finProdFinEquiv (fun i : Fin (8 * 512) => X a i.val * Y b i.val)
    _ = ∑ i : Fin 4096, X a i.val * Y b i.val := rfl

/-! ## The masked linear layer -/

/-- A `[A]` array read at a natural: its entry inside the array, zero outside. -/
def at1 {A : ℕ} (f : (⟨1, ![A]⟩ : Shape).Idx → EReal) (a : ℕ) : EReal :=
  if h : a < A then f (ix1 ⟨a, h⟩) else 0

theorem at1_of_lt {A : ℕ} (f : (⟨1, ![A]⟩ : Shape).Idx → EReal) (a : ℕ) (ha : a < A) : at1 f a = f (ix1 ⟨a, ha⟩) := dif_pos ha

/-- The weight with the mask applied: entry by entry, the weight times the mask's integer as a real. -/
def maskedWeight (w : (⟨2, ![4096, 4096]⟩ : Shape).Idx → EReal) (mk : (⟨2, ![4096, 4096]⟩ : Shape).Idx → BitVec 32) :
    (⟨2, ![4096, 4096]⟩ : Shape).Idx → EReal :=
  fun j => w j * FloatOps.sitofp (F := Ideal) .f32 (mk j)

/-- `y[t, o] = (sum over i < 4096 of x[t, i] * (w[o, i] * mask[o, i])) + bias[o]`. -/
def maskedLinear (x : (⟨2, ![8192, 4096]⟩ : Shape).Idx → EReal) (w : (⟨2, ![4096, 4096]⟩ : Shape).Idx → EReal)
    (bias : (⟨1, ![4096]⟩ : Shape).Idx → EReal) (mk : (⟨2, ![4096, 4096]⟩ : Shape).Idx → BitVec 32) :
    (⟨2, ![8192, 4096]⟩ : Shape).Idx → EReal :=
  fun j => (∑ i : Fin 4096, x (ix2 (j 0) i) * maskedWeight w mk (ix2 (j 1) i)) + bias (ix1 (j 1))

/-- The same entry from the running total: row `a`, column `b`. -/
theorem maskedLinear_eq_runDot (x : (⟨2, ![8192, 4096]⟩ : Shape).Idx → EReal) (w : (⟨2, ![4096, 4096]⟩ : Shape).Idx → EReal)
    (bias : (⟨1, ![4096]⟩ : Shape).Idx → EReal) (mk : (⟨2, ![4096, 4096]⟩ : Shape).Idx → BitVec 32) (a : Fin 8192) (b : Fin 4096) :
    maskedLinear x w bias mk (ix2 a b) = runDot (at2 x) (at2 (maskedWeight w mk)) a.val b.val 7 + at1 bias b.val := by
  rw [runDot_seven, at1_of_lt _ _ b.isLt]
  unfold maskedLinear
  refine congrArg (· + bias (ix1 b)) (Finset.sum_congr rfl fun i _ => ?_)
  rw [at2_of_lt _ _ _ a.isLt i.isLt, at2_of_lt _ _ _ b.isLt i.isLt]

end Cert.MaskedLinear

end
-- ==== Proof.ReferenceValue.lean ====
/-
  The reference computes the masked linear layer, entry by entry.

  Its operations in order: the mask as floats, the weight times that, the product of x with the result contracted
  over both second axes (at an entry (t, o): the sum over i of x[t, i] times the masked weight at [o, i]), the bias
  broadcast along the rows, and their sum.
-/
import proofs.«129745_j15487652069503_1_alg».proof.Proof.Gen.ReferenceIdeal.Read
import proofs.«129745_j15487652069503_1_alg».proof.Proof.ChunkedDot

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.MaskedLinear

theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i32⟩ : BufTy).Contents (Elt Ideal)) :
    val_main_v5 (F := Ideal) x0 x1 x2 x3 = maskedLinear x0 x1 x2 x3 := by
  funext i
  have el : ∀ k : Fin 4096, lidx_main_v2 i k = ix2 (i 0) k := fun k => funext fun a => Fin.ext (by
    match a with
    | ⟨0, _⟩ => rfl
    | ⟨1, _⟩ => rfl)
  have er : ∀ k : Fin 4096, ridx_main_v2 i k = ix2 (i 1) k := fun k => funext fun a => Fin.ext (by
    match a with
    | ⟨0, _⟩ => rfl
    | ⟨1, _⟩ => rfl)
  have eb : idx_main_v3 (idx_main_v4 i) = ix1 (i 1) := funext fun a => Fin.ext (by
    match a with
    | ⟨0, _⟩ => rfl)
  rw [val_main_v5_apply, val_main_v2_apply, val_main_v4_apply, val_main_v3_apply, eb]
  simp only [el, er, val_main_v1_apply, val_main_v0_apply]
  rfl

end Cert.ReferenceIdeal.RefValue

end
-- ==== Proof.BodyPieces.lean ====
/-
  What one run of the kernel body leaves behind, as pure terms of what it loaded.

  The body at a grid point (i, j, k) loads the x block, the weight block and the mask block, multiplies the weight
  by the mask (converted to float), takes the matrix product of the x block with that (contracting both blocks'
  second axis) and adds it to the accumulator; at k = 0 the accumulator is first set to zero; at k = 7 the
  accumulator plus the bias row is stored to the output block. Each of the three control cases leaves in the
  accumulator, and the last one in the output block, exactly the term its stores were given: the stores cover their
  buffers whole, and every load reads a whole buffer.
-/
import proofs.«129745_j15487652069503_1_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- At k = 0 the accumulator is zeroed and then updated: it ends at the update of the zero block. -/
theorem acc_first (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x512 .f32) (x1 : Vec F S1024x512 .f32) (x2 : Vec F S1024x512 .i32) (x3 : Vec F S1x1024 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, View.ld_unit_zero (S := S1024x512) hz]

/-- At 0 < k < 7 the accumulator ends at the update of what the point before left in it. -/
theorem acc_middle (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 : Vec F S1024x512 .f32) (x1 : Vec F S1024x512 .f32) (x2 : Vec F S1024x512 .i32) (x3 : Vec F S1x1024 .f32) (xs : Vec F S1024x1024 .f32) :
    sout0_B_0 c i a3 h3 a4 h4 a5 h5 a6 h6 a7 h7 a8 h8 hc0 hc1 x0 x1 x2 x3 xs = k0_pay2 x0 x1 x2 xs := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  rw [View.canon_unit_zero hz]
  simp only [View.readAt_eq_ld, h3.read_unread, h4.read_unread, h5.read_unread, h8.read_unread, View.ld_unit_zero (S := S1024x512) hz, View.ld_unit_zero (S := S1024x1024) hz]

/-- At k = 7 likewise, -/
theorem acc_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x512 .i32) (x3 : Vec F S1x1024 .f32) (xs : Vec F S1024x1024 .f32) :
    sout0_C_0 c i a3 h3 a4 h4 a5 h5 a6 h6 a7 h7 a8 h8 hc0 hc1 x0 x1 x2 x3 xs = k0_pay2 x0 x1 x2 xs := by
  unfold sout0_C_0
  rw [View.read_writes_eq_canon _ _ _ (scover0_C_0 c i a3 h3 a4 h4 a5 h5 a6 h6 a7 h7 a8 h8 hc0 hc1 x0 x1 x2 x3 xs)]
  unfold kernelRun0_C
  dsimp only
  sl_unfold_words
  rw [View.canon_unit_zero hz]
  simp only [View.readAt_eq_ld, h3.read_unread, h4.read_unread, h5.read_unread, h8.read_unread, View.ld_unit_zero (S := S1024x512) hz, View.ld_unit_zero (S := S1024x1024) hz]

/-- and the output block is stored: the updated accumulator plus the bias row. -/
theorem out_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x512 .i32) (x3 : Vec F S1x1024 .f32) (xs : Vec F S1024x1024 .f32) :
    out0_C_4 c i a3 h3 a4 h4 a5 h5 a6 h6 a7 h7 a8 h8 hc0 hc1 x0 x1 x2 x3 xs = k0_pay3 (k0_pay2 x0 x1 x2 xs) x3 := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero hz]
  simp only [View.readAt_eq_ld, h3.read_unread, h4.read_unread, h5.read_unread, h6.read_unread, h8.read_unread, View.ld_unit_zero (S := S1024x512) hz, View.ld_unit_zero (S := S1024x1024) hz, View.ld_unit_zero (S := S1x1024) hz, View.readCov_unit_zero (S := S1024x1024) _ hz]

end Cert.KernelIdeal.Body

end
-- ==== Proof.PayloadAt.lean ====
/-
  The body's three stored terms read at one entry, on the extended reals.

  On the extended reals a change of float format is the identity and the matrix unit's product into a zero
  accumulator is the plain sum of products over the contracted axis. So, at row r and column s of a
  1024 x 1024 block:
    the zero block is 0;
    the accumulator update is  acc[r, s] + sum over q < 512 of x[r, q] * (w[s, q] * float(mask[s, q]));
    the output is              acc[r, s] + bias[0, s].
-/
import proofs.«129745_j15487652069503_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.ValueIdx
open Cert.KernelIdeal Cert.KernelIdeal.Gen

/-! ## The matrix product's operand indices: the output's row and the contraction index on the left, the output's
    column and the contraction index on the right -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of two 1024 x 512 blocks contracted over their second axes, into a zero accumulator, at (r, s). -/
theorem matmul_at (l rr : FVec Ideal S1024x512 .bf16) (r s : Fin 1024) :
    matmul dot_S1024x512_S1024x512_S1024x1024_1_1_0_0_n_n none l rr (constant S1024x1024 .f32 0x00000000#32) (ix2 r s)
      = ∑ k : Fin 512, l (ix2 r k) * rr (ix2 s k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r s) ((ValueIdx.contrEquiv1 dot_S1024x512_S1024x512_S1024x1024_1_1_0_0_n_n 512 rfl rfl).symm k) = ix2 r k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 r s) ((ValueIdx.contrEquiv1 dot_S1024x512_S1024x512_S1024x1024_1_1_0_0_n_n 512 rfl rfl).symm k) = ix2 s k := funext fun a => Fin.ext (by
    match a with
    | ⟨0, _⟩ => exact rhs_axis0 _ _
    | ⟨1, _⟩ => exact (rhs_axis1 _ _).trans hk)
  rw [el, er]

/-! ## The three stored terms -/

/-- The reset stores zero. -/
theorem zero_at (r s : Fin 1024) : k0_pay1 (F := Ideal) (ix2 r s) = 0 := by
  unfold k0_pay1
  rw [shapeCast_self]
  exact Ideal.ofBits_zero_f32

/-- The update adds the chunk's products to the accumulator. -/
theorem update_at (x w : Vec Ideal S1024x512 .f32) (mk : Vec Ideal S1024x512 .i32) (acc : Vec Ideal S1024x1024 .f32) (r s : Fin 1024) :
    k0_pay2 (F := Ideal) x w mk acc (ix2 r s)
      = acc (ix2 r s) + ∑ q : Fin 512, x (ix2 r q) * (w (ix2 s q) * FloatOps.sitofp (F := Ideal) .f32 (mk (ix2 s q))) := by
  unfold k0_pay2
  rw [shapeCast_self]
  rw [addf_apply, matmul_at]
  rfl

/-- The output adds the bias entry of its column. -/
theorem output_at (acc : Vec Ideal S1024x1024 .f32) (b : Vec Ideal S1x1024 .f32) (r s : Fin 1024) :
    k0_pay3 (F := Ideal) acc b (ix2 r s) = acc (ix2 r s) + b (ix2 0 s) := by
  unfold k0_pay3
  rw [shapeCast_self]
  show acc (ix2 r s) + broadcastTo S1024x1024 b broadcasts_S1x1024_S1024x1024 (ix2 r s) = _
  rw [broadcastTo_apply b broadcasts_S1x1024_S1024x1024 (ix2 r s) (ix2 0 s) (fun a => match a with
    | ⟨0, _⟩ => by show 0 = if (1 : Nat) = 1 then 0 else _; rw [if_pos rfl]
    | ⟨1, _⟩ => by show s.val = if (1024 : Nat) = 1 then 0 else s.val; rw [if_neg (by decide)])]

end Cert.KernelIdeal.Body

end
-- ==== Proof.BlockReads.lean ====
/-
  Where each block the body loads sits in the argument arrays.

  The 256 grid points are numbered t = 32 i + 8 j + k over the 8 x 4 x 8 grid (i: row block of x and of the output,
  j: row block of the weight and mask, which is the output's column block, k: column chunk). At point t the x block
  is rows 1024 i … and columns 512 k … of x, the weight and mask blocks are rows 1024 j … and columns 512 k … of
  theirs, and the bias block is columns 1024 j … of the bias, which reaches the kernel reshaped to one row.
-/
import proofs.«129745_j15487652069503_1_alg».proof.Proof.Gen.KernelIdeal.Frame
import proofs.«129745_j15487652069503_1_alg».proof.Proof.ChunkedDot
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.MaskedLinear

variable (m : (ℓ : Loc nD τ sig) → Buf (Elt Ideal) ℓ)

/-- The four argument arrays, at their literal shapes. -/
abbrev xArr (c : Dev nD) : Vec Ideal S8192x4096 .f32 := m ((c : Thread nD τ).loc main_arg0)
abbrev wArr (c : Dev nD) : Vec Ideal S4096x4096 .f32 := m ((c : Thread nD τ).loc main_arg1)
abbrev bArr (c : Dev nD) : Vec Ideal S4096 .f32 := m ((c : Thread nD τ).loc main_arg2)
abbrev mArr (c : Dev nD) : Vec Ideal S4096x4096 .i32 := m ((c : Thread nD τ).loc main_arg3)

/-- The four blocks the body loads at point `t`, at their literal shapes. -/
abbrev xBlk (c : Dev nD) (t : Fin cfg0.N) : Vec Ideal S1024x512 .f32 := iblk m c 0 t
abbrev wBlk (c : Dev nD) (t : Fin cfg0.N) : Vec Ideal S1024x512 .f32 := iblk m c 1 t
abbrev mBlk (c : Dev nD) (t : Fin cfg0.N) : Vec Ideal S1024x512 .i32 := iblk m c 2 t
abbrev bBlk (c : Dev nD) (t : Fin cfg0.N) : Vec Ideal S1x1024 .f32 := iblk m c 3 t

/-- The block index of every window at every point, from the point's number. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

theorem xBlk_at (c : Dev nD) (t : Fin cfg0.N) (r : Fin 1024) (q : Fin 512) :
    xBlk m c t (ix2 r q) = at2 (xArr m c) (1024 * (t.val / 32) + r.val) (512 * (t.val % 8) + q.val) := by
  have hN : t.val < 256 := lt_of_lt_of_eq t.isLt N_0
  obtain ⟨e0, e1, -⟩ := idx_facts t
  rw [at2_of_lt _ _ _ (by omega) (by omega)]
  show V m c main_arg0 (((cfg0.win 0).blk t).view.emb (ix2 r q)) = m ((c : Thread nD τ).loc main_arg0) _
  rw [V_main_arg0]
  congr 1
  funext a; apply Fin.ext
  match a with
  | ⟨0, _⟩ => show win0_0.index t (0 : Fin 2) * 1024 + 1 * r.val = 1024 * (t.val / 32) + r.val; omega
  | ⟨1, _⟩ => show win0_0.index t (1 : Fin 2) * 512 + 1 * q.val = 512 * (t.val % 8) + q.val; omega

theorem wBlk_at (c : Dev nD) (t : Fin cfg0.N) (s : Fin 1024) (q : Fin 512) :
    wBlk m c t (ix2 s q) = at2 (wArr m c) (1024 * (t.val / 8 % 4) + s.val) (512 * (t.val % 8) + q.val) := by
  have hN : t.val < 256 := lt_of_lt_of_eq t.isLt N_0
  obtain ⟨-, -, e0, e1, -⟩ := idx_facts t
  rw [at2_of_lt _ _ _ (by omega) (by omega)]
  show V m c main_arg1 (((cfg0.win 1).blk t).view.emb (ix2 s q)) = m ((c : Thread nD τ).loc main_arg1) _
  rw [V_main_arg1]
  congr 1
  funext a; apply Fin.ext
  match a with
  | ⟨0, _⟩ => show win0_1.index t (0 : Fin 2) * 1024 + 1 * s.val = 1024 * (t.val / 8 % 4) + s.val; omega
  | ⟨1, _⟩ => show win0_1.index t (1 : Fin 2) * 512 + 1 * q.val = 512 * (t.val % 8) + q.val; omega

/-- The mask block is read at the same place as the weight block. -/
theorem mBlk_at (c : Dev nD) (t : Fin cfg0.N) (s : Fin 1024) (q : Fin 512)
    (ha : 1024 * (t.val / 8 % 4) + s.val < 4096) (hb : 512 * (t.val % 8) + q.val < 4096) :
    mBlk m c t (ix2 s q) = mArr m c (ix2 ⟨1024 * (t.val / 8 % 4) + s.val, ha⟩ ⟨512 * (t.val % 8) + q.val, hb⟩) := by
  obtain ⟨-, -, -, -, e0, e1, -⟩ := idx_facts t
  show V m c main_arg3 (((cfg0.win 2).blk t).view.emb (ix2 s q)) = m ((c : Thread nD τ).loc main_arg3) _
  rw [V_main_arg3]
  congr 1
  funext a; apply Fin.ext
  match a with
  | ⟨0, _⟩ => show win0_2.index t (0 : Fin 2) * 1024 + 1 * s.val = 1024 * (t.val / 8 % 4) + s.val; omega
  | ⟨1, _⟩ => show win0_2.index t (1 : Fin 2) * 512 + 1 * q.val = 512 * (t.val % 8) + q.val; omega

/-- So the weight block times the mask block is a block of the masked weight. -/
theorem wmBlk_at (c : Dev nD) (t : Fin cfg0.N) (s : Fin 1024) (q : Fin 512) :
    wBlk m c t (ix2 s q) * FloatOps.sitofp (F := Ideal) .f32 (mBlk m c t (ix2 s q))
      = at2 (maskedWeight (wArr m c) (mArr m c)) (1024 * (t.val / 8 % 4) + s.val) (512 * (t.val % 8) + q.val) := by
  have hN : t.val < 256 := lt_of_lt_of_eq t.isLt N_0
  have ha : 1024 * (t.val / 8 % 4) + s.val < 4096 := by omega
  have hb : 512 * (t.val % 8) + q.val < 4096 := by omega
  rw [wBlk_at, mBlk_at m c t s q ha hb, at2_of_lt _ _ _ ha hb, at2_of_lt _ _ _ ha hb]
  rfl

/-- The bias reaches the kernel as one row of 4096. -/
theorem biasRow_eq (c : Dev nD) :
    (V m c main_v0 : Vec Ideal S1x4096 .f32) = shapeCast S1x4096 (bArr m c) shapeCasts_S4096_S1x4096 := by
  dsimp only [V, hostOps0]
  after_results
  rfl

theorem bBlk_at (c : Dev nD) (t : Fin cfg0.N) (s : Fin 1024) :
    bBlk m c t (ix2 0 s) = at1 (bArr m c) (1024 * (t.val / 8 % 4) + s.val) := by
  have hN : t.val < 256 := lt_of_lt_of_eq t.isLt N_0
  obtain ⟨-, -, -, -, -, -, e0, e1, -⟩ := idx_facts t
  have hb : 1024 * (t.val / 8 % 4) + s.val < 4096 := by omega
  rw [at1_of_lt _ _ hb]
  show V m c main_v0 (((cfg0.win 3).blk t).view.emb (ix2 0 s)) = _
  rw [biasRow_eq]
  refine shapeCast_apply (bArr m c) shapeCasts_S4096_S1x4096 _ (ix1 ⟨1024 * (t.val / 8 % 4) + s.val, hb⟩) ?_
  rw [Shape.rowMajor_val_two]
  show _ = (win0_3.index t (0 : Fin 2) * 1 + 1 * 0) * 4096 + (win0_3.index t (1 : Fin 2) * 1024 + 1 * s.val)
  rw [e0, e1, Shape.rowMajor_val_one]
  show 1024 * (t.val / 8 % 4) + s.val = _
  omega

end Cert.KernelIdeal.Blocks

end
-- ==== Proof.Accumulate.lean ====
/-
  What the accumulator holds after each grid point, and what the output block holds when it is stored.

  Write a point as t = 32 i + 8 j + k. After point t, entry (r, s) of the accumulator is the running total, over the
  chunks 0 … k, of the products of row 1024 i + r of x with row 1024 j + s of the masked weight: at k = 0 the body
  zeroes it and adds chunk 0; at k > 0 it adds chunk k to what point t - 1 (same i and j, chunk k - 1) left. At
  k = 7 the output block is stored as that total plus the bias entry of column 1024 j + s.
-/
import proofs.«129745_j15487652069503_1_alg».proof.Proof.BodyPieces
import proofs.«129745_j15487652069503_1_alg».proof.Proof.PayloadAt
import proofs.«129745_j15487652069503_1_alg».proof.Proof.BlockReads

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Body Cert.KernelIdeal.Blocks Cert.MaskedLinear

variable (m : (ℓ : Loc nD τ sig) → Buf (Elt Ideal) ℓ)

/-- x, and the masked weight, read at pairs of naturals. -/
abbrev X (c : Dev nD) : ℕ → ℕ → EReal := at2 (xArr m c)
abbrev Y (c : Dev nD) : ℕ → ℕ → EReal := at2 (maskedWeight (wArr m c) (mArr m c))

/-- The products the body sums at point `t` are chunk `t % 8` of the dot product of the two rows. -/
theorem chunk_at (c : Dev nD) (t : Fin cfg0.N) (r s : Fin 1024) :
    ∑ q : Fin 512, xBlk m c t (ix2 r q) * (wBlk m c t (ix2 s q) * FloatOps.sitofp (F := Ideal) .f32 (mBlk m c t (ix2 s q)))
      = chunkDot (X m c) (Y m c) (1024 * (t.val / 32) + r.val) (1024 * (t.val / 8 % 4) + s.val) (t.val % 8) := by
  unfold chunkDot
  refine Finset.sum_congr rfl fun q _ => ?_
  rw [xBlk_at, wmBlk_at]

/-- At the first point of a run of eight the accumulator ends at zero plus chunk 0. -/
theorem acc_at_first (c : Dev nD) (t : Fin cfg0.N) (h0 : t.val % 8 = 0) (r s : Fin 1024) :
    (outsAt0 m c t.val t.isLt).2 (ix2 r s) = 0 + chunkDot (X m c) (Y m c) (1024 * (t.val / 32) + r.val) (1024 * (t.val / 8 % 4) + s.val) (t.val % 8) := by
  have h1 : ¬t.val % 8 = 7 := by omega
  have e : (outsAt0 m c t.val t.isLt).2 = k0_pay2 (xBlk m c t) (wBlk m c t) (mBlk m c t) (k0_pay1 (F := Ideal)) := by
    rw [outsAt0_A m c t h0 h1]
    dsimp only
    exact acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xBlk m c t) (wBlk m c t) (mBlk m c t) (bBlk m c t)
  rw [e, update_at, zero_at, chunk_at]

/-- At every later point of the run it ends at what the point before left plus this point's chunk. -/
theorem acc_at_next (c : Dev nD) (t : Fin cfg0.N) (h0 : ¬t.val % 8 = 0) (r s : Fin 1024) :
    (outsAt0 m c t.val t.isLt).2 (ix2 r s)
      = (outsAt0 m c (t.val - 1) (Nat.lt_of_le_of_lt (Nat.sub_le _ _) t.isLt)).2 (ix2 r s) + chunkDot (X m c) (Y m c) (1024 * (t.val / 32) + r.val) (1024 * (t.val / 8 % 4) + s.val) (t.val % 8) := by
  have e : (outsAt0 m c t.val t.isLt).2 = k0_pay2 (xBlk m c t) (wBlk m c t) (mBlk m c t) (outsAt0 m c (t.val - 1) (Nat.lt_of_le_of_lt (Nat.sub_le _ _) t.isLt)).2 := by
    by_cases h1 : t.val % 8 = 7
    · rw [outsAt0_C m c t h0 h1]
      dsimp only
      exact acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk m c t) (wBlk m c t) (mBlk m c t) (bBlk m c t) (outsAt0 m c (t.val - 1) (Nat.lt_of_le_of_lt (Nat.sub_le _ _) t.isLt)).2
    · rw [outsAt0_B m c t h0 h1]
      dsimp only
      exact acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xBlk m c t) (wBlk m c t) (mBlk m c t) (bBlk m c t) (outsAt0 m c (t.val - 1) (Nat.lt_of_le_of_lt (Nat.sub_le _ _) t.isLt)).2
  rw [e, update_at, chunk_at]

/-- So after point `n` the accumulator holds the running total of the chunks `0 … n % 8`. -/
theorem acc_eq_runDot (c : Dev nD) : ∀ (n : ℕ) (h : n < cfg0.N) (r s : Fin 1024),
    (outsAt0 m c n h).2 (ix2 r s)
      = runDot (X m c) (Y m c) (1024 * (n / 32) + r.val) (1024 * (n / 8 % 4) + s.val) (n % 8) := by
  intro n
  induction n with
  | zero =>
    intro h r s
    exact acc_at_first m c ⟨0, h⟩ rfl r s
  | succ n ih =>
    intro h r s
    by_cases h0 : (n + 1) % 8 = 0
    · refine (acc_at_first m c ⟨n + 1, h⟩ h0 r s).trans ?_
      show 0 + chunkDot (X m c) (Y m c) (1024 * ((n + 1) / 32) + r.val) (1024 * ((n + 1) / 8 % 4) + s.val) ((n + 1) % 8) = _
      rw [h0]
      rfl
    · refine (acc_at_next m c ⟨n + 1, h⟩ h0 r s).trans ?_
      show (outsAt0 m c n _).2 (ix2 r s) + chunkDot (X m c) (Y m c) (1024 * ((n + 1) / 32) + r.val) (1024 * ((n + 1) / 8 % 4) + s.val) ((n + 1) % 8) = _
      rw [ih _ r s]
      have e1 : (n + 1) / 32 = n / 32 := by omega
      have e2 : (n + 1) / 8 % 4 = n / 8 % 4 := by omega
      have e3 : (n + 1) % 8 = n % 8 + 1 := by omega
      rw [e1, e2, e3]
      rfl

/-- At the last point of a run the output block is stored: the full total plus the bias. -/
theorem out_at_last (c : Dev nD) (t : Fin cfg0.N) (h1 : t.val % 8 = 7) (r s : Fin 1024) :
    (outsAt0 m c t.val t.isLt).1 (ix2 r s)
      = runDot (X m c) (Y m c) (1024 * (t.val / 32) + r.val) (1024 * (t.val / 8 % 4) + s.val) 7 + at1 (bArr m c) (1024 * (t.val / 8 % 4) + s.val) := by
  have h0 : ¬t.val % 8 = 0 := by omega
  have hacc := acc_eq_runDot m c t.val t.isLt r s
  rw [h1] at hacc
  have e1 : (outsAt0 m c t.val t.isLt).1 = k0_pay3 (k0_pay2 (xBlk m c t) (wBlk m c t) (mBlk m c t) (outsAt0 m c (t.val - 1) (Nat.lt_of_le_of_lt (Nat.sub_le _ _) t.isLt)).2) (bBlk m c t) := by
    rw [outsAt0_C m c t h0 h1]
    dsimp only
    exact out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk m c t) (wBlk m c t) (mBlk m c t) (bBlk m c t) (outsAt0 m c (t.val - 1) (Nat.lt_of_le_of_lt (Nat.sub_le _ _) t.isLt)).2
  have e2 : (outsAt0 m c t.val t.isLt).2 = k0_pay2 (xBlk m c t) (wBlk m c t) (mBlk m c t) (outsAt0 m c (t.val - 1) (Nat.lt_of_le_of_lt (Nat.sub_le _ _) t.isLt)).2 := by
    rw [outsAt0_C m c t h0 h1]
    dsimp only
    exact acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk m c t) (wBlk m c t) (mBlk m c t) (bBlk m c t) (outsAt0 m c (t.val - 1) (Nat.lt_of_le_of_lt (Nat.sub_le _ _) t.isLt)).2
  rw [e1, output_at, ← e2, hacc, bBlk_at]

end Cert.KernelIdeal.Accum

end
-- ==== Proof.Result.lean ====
/-
  The output array after the kernel's run is the masked linear layer of the arguments.

  The output block (i, j) is written back once, after the point t = 32 i + 8 j + 7, holding at (r, s) the total over
  all eight chunks plus the bias: entry (1024 i + r, 1024 j + s) of the masked linear layer. The 8 x 4 blocks
  tile the 8192 x 4096 output, so the whole array ends at that function of the arguments.
-/
import proofs.«129745_j15487652069503_1_alg».proof.Proof.Gen.KernelIdeal.Value
import proofs.«129745_j15487652069503_1_alg».proof.Proof.Accumulate

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.MaskedLinear

variable (m : (ℓ : Loc nD τ sig) → Buf (Elt Ideal) ℓ) (ρ : Dev nD → PrngReg)

/-- What the result array ends holding. -/
abbrev result (c : Dev nD) : Buf (Elt Ideal) ((c : Thread nD τ).loc main_v1) :=
  maskedLinear (xArr m c) (wArr m c) (bArr m c) (mArr m c)

/-- An entry of the block stored at the last point of a run is the layer's entry at the block's place. -/
theorem stored_entry (c : Dev nD) (t : Fin cfg0.N) (h1 : t.val % 8 = 7) (y : S1024x1024.Idx)
    (ha : 1024 * (t.val / 32) + (y 0).val < 8192) (hb : 1024 * (t.val / 8 % 4) + (y 1).val < 4096) :
    (outsAt0 m c t.val t.isLt).1 y = result m c (ix2 ⟨1024 * (t.val / 32) + (y 0).val, ha⟩ ⟨1024 * (t.val / 8 % 4) + (y 1).val, hb⟩) := by
  obtain ⟨r, s, rfl⟩ : ∃ (r s : Fin 1024), y = ix2 r s := ⟨y 0, y 1, eq_ix2 y⟩
  rw [out_at_last m c t h1 r s]
  exact (maskedLinear_eq_runDot _ _ _ _ ⟨1024 * (t.val / 32) + r.val, ha⟩ ⟨1024 * (t.val / 8 % 4) + s.val, hb⟩).symm

/-- What a point writes back is its block of the result. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have hN : t.val < 256 := lt_of_lt_of_eq t.isLt N_0
  obtain ⟨-, -, -, -, -, -, -, -, e0, e1⟩ := idx_facts t
  rw [Value.flushed4]
  funext y
  have hy0 : (y 0).val < 1024 := (y 0).isLt
  have hy1 : (y 1).val < 1024 := (y 1).isLt
  refine (stored_entry m c t h1 y (by omega) (by omega)).trans ?_
  show result m c _ = result m c (((cfg0.win 4).blk t).view.emb y)
  congr 1
  funext a; apply Fin.ext
  match a with
  | ⟨0, _⟩ => show 1024 * (t.val / 32) + (y 0).val = win0_4.index t (0 : Fin 2) * 1024 + 1 * (y 0).val; omega
  | ⟨1, _⟩ => show 1024 * (t.val / 8 % 4) + (y 1).val = win0_4.index t (1 : Fin 2) * 1024 + 1 * (y 1).val; omega

/-- Every entry of the output lies in the block written back after the eighth chunk of its row block and column block. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  have hlt : 32 * ((i 0).val / 1024) + 8 * ((i 1).val / 1024) + 7 < cfg0.N := by rw [hN]; omega
  obtain ⟨t, ht⟩ : ∃ t : Fin cfg0.N, t.val = 32 * ((i 0).val / 1024) + 8 * ((i 1).val / 1024) + 7 := ⟨⟨_, hlt⟩, rfl⟩
  obtain ⟨-, -, -, -, -, -, -, -, e0, e1⟩ := idx_facts t
  refine ⟨t, (flush0_4 t).mpr (by omega), ?_⟩
  show i ∈ ((View.whole main_v1).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- So the result array ends at the masked linear layer of the arguments. -/
theorem final (c : Dev nD) : (dats m 0 c).arrAt 4 cfg0.N = result m c :=
  (dats m 0 c).arrAt_eq_of_cover 4 (result m c) (flushed_eq m c) cover

/-- The kernel's run: it terminates with the result array at the layer and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.lean ====
/-
  The kernel computes the masked linear layer  y = x (w * mask)^T + bias  over f32[8192, 4096] tokens, a
  [4096, 4096] weight with an integer mask of the same shape, and a [4096] bias; the reference computes the same
  layer with one matrix product on the host.

  The kernel tiles the output into 8 x 4 blocks of 1024 x 1024 and, for each block, walks the 4096 contracted columns
  in eight chunks of 512: it zeroes an accumulator at the first chunk, adds each chunk's product of the x block with
  the masked weight block (both rounded to bf16 first, which is the identity on the extended reals), and after the
  eighth chunk stores the accumulator plus the bias row. On the extended reals the eight partial sums added in order
  onto zero are the sum over all 4096 columns, because addition there is commutative and associative whether or not
  an entry is infinite; so both programs end with
      y[t, o] = (sum over i < 4096 of x[t, i] * (w[o, i] * mask[o, i])) + bias[o],
  and the precondition (finite inputs) is never opened.

  Modules: ChunkedDot (the sum in eight chunks, and the layer as a function of the arguments), ReferenceValue (the
  reference's operations compose to the layer), BodyPieces (what one run of the body leaves in the accumulator and
  the output block), PayloadAt (those terms at one entry), BlockReads (where each loaded block sits in the arguments),
  Accumulate (the accumulator after every grid point, by induction over the points), Result (the write-backs tile
  the output: the array after the run).
-/
import proofs.«129745_j15487652069503_1_alg».proof.Defs
import proofs.«129745_j15487652069503_1_alg».proof.Proof.Gen.Kernel
import proofs.«129745_j15487652069503_1_alg».proof.Proof.Gen.Kernel.Skeleton
import proofs.«129745_j15487652069503_1_alg».proof.Proof.Gen.Kernel.Launch
import proofs.«129745_j15487652069503_1_alg».proof.Proof.Gen.Kernel.Points
import proofs.«129745_j15487652069503_1_alg».proof.Proof.Gen.Kernel.Frame
import proofs.«129745_j15487652069503_1_alg».proof.Proof.Gen.KernelIdeal
import proofs.«129745_j15487652069503_1_alg».proof.Proof.Gen.KernelIdeal.Skeleton
import proofs.«129745_j15487652069503_1_alg».proof.Proof.Gen.KernelIdeal.Launch
import proofs.«129745_j15487652069503_1_alg».proof.Proof.Gen.KernelIdeal.Points
import proofs.«129745_j15487652069503_1_alg».proof.Proof.Gen.KernelIdeal.Frame
import proofs.«129745_j15487652069503_1_alg».proof.Proof.Gen.ReferenceIdeal
import proofs.«129745_j15487652069503_1_alg».proof.Proof.Gen.Pre_finite_inputs
import proofs.«129745_j15487652069503_1_alg».proof.Proof.Gen.KernelIdeal.Value
import proofs.«129745_j15487652069503_1_alg».proof.Proof.Gen.ReferenceIdeal.Run
import proofs.«129745_j15487652069503_1_alg».proof.Proof.Gen.ReferenceIdeal.Read
import proofs.«129745_j15487652069503_1_alg».proof.Proof.ReferenceValue
import proofs.«129745_j15487652069503_1_alg».proof.Proof.Result
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the masked linear layer of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
